-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x32 .f32) (main_arg3 : FVec F S160x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S32x64 : Shape := ⟨2, ![32, 64]⟩
abbrev S1x64 : Shape := ⟨2, ![1, 64]⟩
abbrev S10000x64 : Shape := ⟨2, ![10000, 64]⟩
abbrev S10000x32 : Shape := ⟨2, ![10000, 32]⟩

abbrev nBuf : Space → Nat
  | .hbm => 55
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S64x64, .f32⟩
  | .hbm, ⟨34, _⟩ => ⟨S64x64, .f32⟩
  | .hbm, ⟨35, _⟩ => ⟨S32x64, .f32⟩
  | .hbm, ⟨36, _⟩ => ⟨S1x64, .f32⟩
  | .hbm, ⟨37, _⟩ => ⟨S1x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S50000x64, .f32⟩
  | .hbm, ⟨50, _⟩ => ⟨S64x64, .f32⟩
  | .hbm, ⟨51, _⟩ => ⟨S64x64, .f32⟩
  | .hbm, ⟨52, _⟩ => ⟨S1x64, .f32⟩
  | .hbm, ⟨53, _⟩ => ⟨S1x64, .f32⟩
  | .hbm, ⟨54, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x32, .f32⟩
  | .local _ .vmem, ⟨5, _⟩ => ⟨S10000x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S160x64_S64x64_0_0 : S160x64.Slices ![0, 0] S64x64
  slices_S160x64_S64x64_64_0 : S160x64.Slices ![64, 0] S64x64
  slices_S160x64_S32x64_128_0 : S160x64.Slices ![128, 0] S32x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  gather_S50000x64_S800000x1_S800000x64_1_0_n_n_0_1_164_wf : GatherDims.WF S50000x64 S800000x1 S800000x64 [1] [0] [] [0] [] 1 ![1, 64]
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S800000x32.size a
  hwx0_2 : ∀ i : grid0.Coords, EltTy.bits .f32 = 32 ∨ (Rect.block (s := S800000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S800000x64.size a
  hwx0_9 : ∀ i : grid0.Coords, EltTy.bits .f32 = 32 ∨ (Rect.block (s := S800000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S50000x128 : Shape := ⟨2, ![50000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x160, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S50000x64, .f32⟩
  | .hbm, ⟨56, _⟩ => ⟨S50000x128, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Mlp.lean ====
/-
  The two small networks of one message-passing layer, as functions of whole arrays over the extended reals, for any
  number of rows n.

  The edge network takes, for each edge e, the features of its two end nodes (64 numbers each) and the edge's own
  32 attributes, and computes
      out(e, j) = Σ_k  max( Σ_a xr(e,a)·Wx(a,k) + Σ_a xc(e,a)·Wy(a,k) + Σ_a ea(e,a)·We(a,k) + b1(k), 0 ) · W2(k, j) + b2(j).
  The node network takes, for each node v, its own features and the aggregated messages (64 numbers each), and computes
      out(v, j) = max( Σ_k  max( Σ_a x(v,a)·Wx(a,k) + Σ_a agg(v,a)·Wa(a,k) + b1(k), 0 ) · W2(k, j) + b2(j) + x(v, j), 0 ).
  Each output row depends on the same row of the row-indexed inputs only, so a block of rows of the output is the same
  function of the corresponding blocks of rows of the inputs.
-/
import Idealize.ShloMosaic.PureOps.Ideal
import Idealize.ShloMosaic.Lib.ValueIdx

noncomputable section

namespace Mlp

open Idealize.ShloMosaic Idealize.ShloMosaic.ValueIdx

/-- The float zero the two programs clamp against (the same word in both, never evaluated). -/
abbrev z32 : EReal := Ideal.ofBits .f32 0x00000000#32

/-- The edge network's hidden unit k of row e, after the clamp at zero. -/
def edgeHid {n : ℕ} (xr xc : FVec Ideal ⟨2, ![n, 64]⟩ .f32) (ea : FVec Ideal ⟨2, ![n, 32]⟩ .f32)
    (wx wy : FVec Ideal ⟨2, ![64, 64]⟩ .f32) (we : FVec Ideal ⟨2, ![32, 64]⟩ .f32) (b1 : FVec Ideal ⟨2, ![1, 64]⟩ .f32)
    (e : Fin n) (k : Fin 64) : EReal :=
  max ((((∑ a : Fin 64, xr (ix2 e a) * wx (ix2 a k)) + (∑ a : Fin 64, xc (ix2 e a) * wy (ix2 a k)))
      + (∑ a : Fin 32, ea (ix2 e a) * we (ix2 a k))) + b1 (ix2 (0 : Fin 1) k)) z32

/-- The edge network on n rows. -/
def edgeFn {n : ℕ} (xr xc : FVec Ideal ⟨2, ![n, 64]⟩ .f32) (ea : FVec Ideal ⟨2, ![n, 32]⟩ .f32)
    (wx wy : FVec Ideal ⟨2, ![64, 64]⟩ .f32) (we : FVec Ideal ⟨2, ![32, 64]⟩ .f32) (b1 : FVec Ideal ⟨2, ![1, 64]⟩ .f32)
    (w2 : FVec Ideal ⟨2, ![64, 64]⟩ .f32) (b2 : FVec Ideal ⟨2, ![1, 64]⟩ .f32) : FVec Ideal ⟨2, ![n, 64]⟩ .f32 :=
  fun i => (∑ k : Fin 64, edgeHid xr xc ea wx wy we b1 (i 0) k * w2 (ix2 k (i 1))) + b2 (ix2 (0 : Fin 1) (i 1))

theorem edgeFn_apply {n : ℕ} (xr xc : FVec Ideal ⟨2, ![n, 64]⟩ .f32) (ea : FVec Ideal ⟨2, ![n, 32]⟩ .f32)
    (wx wy : FVec Ideal ⟨2, ![64, 64]⟩ .f32) (we : FVec Ideal ⟨2, ![32, 64]⟩ .f32) (b1 : FVec Ideal ⟨2, ![1, 64]⟩ .f32)
    (w2 : FVec Ideal ⟨2, ![64, 64]⟩ .f32) (b2 : FVec Ideal ⟨2, ![1, 64]⟩ .f32) (e : Fin n) (j : Fin 64) :
    edgeFn xr xc ea wx wy we b1 w2 b2 (ix2 e j)
      = (∑ k : Fin 64, edgeHid xr xc ea wx wy we b1 e k * w2 (ix2 k j)) + b2 (ix2 (0 : Fin 1) j) := rfl

/-- Row e of the edge network's output is a function of row e of its three row-indexed inputs. -/
theorem edgeFn_rows {n n' : ℕ} (xr xc : FVec Ideal ⟨2, ![n, 64]⟩ .f32) (ea : FVec Ideal ⟨2, ![n, 32]⟩ .f32)
    (xr' xc' : FVec Ideal ⟨2, ![n', 64]⟩ .f32) (ea' : FVec Ideal ⟨2, ![n', 32]⟩ .f32)
    (wx wy : FVec Ideal ⟨2, ![64, 64]⟩ .f32) (we : FVec Ideal ⟨2, ![32, 64]⟩ .f32) (b1 : FVec Ideal ⟨2, ![1, 64]⟩ .f32)
    (w2 : FVec Ideal ⟨2, ![64, 64]⟩ .f32) (b2 : FVec Ideal ⟨2, ![1, 64]⟩ .f32) (e : Fin n) (e' : Fin n') (j : Fin 64)
    (hr : ∀ a, xr (ix2 e a) = xr' (ix2 e' a)) (hc : ∀ a, xc (ix2 e a) = xc' (ix2 e' a))
    (he : ∀ a, ea (ix2 e a) = ea' (ix2 e' a)) :
    edgeFn xr xc ea wx wy we b1 w2 b2 (ix2 e j) = edgeFn xr' xc' ea' wx wy we b1 w2 b2 (ix2 e' j) := by
  rw [edgeFn_apply, edgeFn_apply]
  simp only [edgeHid, hr, hc, he]

/-- The node network's hidden unit k of row v, after the clamp at zero. -/
def nodeHid {n : ℕ} (x agg : FVec Ideal ⟨2, ![n, 64]⟩ .f32)
    (wx wa : FVec Ideal ⟨2, ![64, 64]⟩ .f32) (b1 : FVec Ideal ⟨2, ![1, 64]⟩ .f32) (v : Fin n) (k : Fin 64) : EReal :=
  max (((∑ a : Fin 64, x (ix2 v a) * wx (ix2 a k)) + (∑ a : Fin 64, agg (ix2 v a) * wa (ix2 a k))) + b1 (ix2 (0 : Fin 1) k)) z32

/-- The node network on n rows, with its residual connection and final clamp. -/
def nodeFn {n : ℕ} (x agg : FVec Ideal ⟨2, ![n, 64]⟩ .f32)
    (wx wa : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) : FVec Ideal ⟨2, ![n, 64]⟩ .f32 :=
  fun i => max ((((∑ k : Fin 64, nodeHid x agg wx wa b1 (i 0) k * w2 (ix2 k (i 1))) + b2 (ix2 (0 : Fin 1) (i 1))) + x (ix2 (i 0) (i 1)))) z32

theorem nodeFn_apply {n : ℕ} (x agg : FVec Ideal ⟨2, ![n, 64]⟩ .f32)
    (wx wa : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) (v : Fin n) (j : Fin 64) :
    nodeFn x agg wx wa b1 w2 b2 (ix2 v j)
      = max ((((∑ k : Fin 64, nodeHid x agg wx wa b1 v k * w2 (ix2 k j)) + b2 (ix2 (0 : Fin 1) j)) + x (ix2 v j))) z32 := rfl

/-- Row v of the node network's output is a function of row v of its two row-indexed inputs. -/
theorem nodeFn_rows {n n' : ℕ} (x agg : FVec Ideal ⟨2, ![n, 64]⟩ .f32) (x' agg' : FVec Ideal ⟨2, ![n', 64]⟩ .f32)
    (wx wa : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) (v : Fin n) (v' : Fin n') (j : Fin 64)
    (hx : ∀ a, x (ix2 v a) = x' (ix2 v' a)) (ha : ∀ a, agg (ix2 v a) = agg' (ix2 v' a)) :
    nodeFn x agg wx wa b1 w2 b2 (ix2 v j) = nodeFn x' agg' wx wa b1 w2 b2 (ix2 v' j) := by
  rw [nodeFn_apply, nodeFn_apply]
  simp only [nodeHid, hx, ha]

end Mlp

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.KPayload.lean ====
/-
  What one grid step of each of the two kernels computes from the blocks it loads, read entry by entry over the extended
  reals: the edge kernel's stored block is the edge network of its loaded blocks, and the node kernel's stored block is
  the node network of its loaded blocks.  A change of float format is the identity here, a matrix product into a zero
  accumulator is the plain sum of products, and the broadcast of the one-row bias reads that row.
-/
import proofs.«180458_j60619168416170_1_alg».proof.Proof.Gen.KernelIdeal.Skeleton
import proofs.«180458_j60619168416170_1_alg».proof.Proof.Mlp
import proofs.«180458_j60619168416170_1_alg».proof.Proof.LibPlainMatmul
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- The one-row bias broadcast down the 10000 rows, read at (p, q), is the row's entry q. -/
theorem bias_apply (b : FVec Ideal S1x64 .f32) (p : Fin 10000) (q : Fin 64) :
    broadcastTo S10000x64 b broadcasts_S1x64_S10000x64 (ix2 p q) = b (ix2 (0 : Fin 1) q) := by
  exact broadcastTo_apply b broadcasts_S1x64_S10000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else _; rw [if_neg (by decide)]; rfl)

/-- A 10000×64 by 64×64 product into the zero accumulator, at (p, q). -/
theorem mm64 {φ₁ φ₂ : FTy} (A : FVec Ideal S10000x64 φ₁) (B : FVec Ideal S64x64 φ₂) (p : Fin 10000) (q : Fin 64) :
    matmul dot_S10000x64_S64x64_S10000x64_1_0_0_1_n_n none A B (constant S10000x64 .f32 0x00000000#32) (ix2 p q)
      = ∑ c : Fin 64, A (ix2 p c) * B (ix2 c q) :=
  LibPlainMatmul.matmul_plain_zero_apply (m := 10000) (k := 64) (n := 64) none A B p q

/-- A 10000×32 by 32×64 product into the zero accumulator, at (p, q). -/
theorem mm32 {φ₁ φ₂ : FTy} (A : FVec Ideal S10000x32 φ₁) (B : FVec Ideal S32x64 φ₂) (p : Fin 10000) (q : Fin 64) :
    matmul dot_S10000x32_S32x64_S10000x64_1_0_0_1_n_n none A B (constant S10000x64 .f32 0x00000000#32) (ix2 p q)
      = ∑ c : Fin 32, A (ix2 p c) * B (ix2 c q) :=
  LibPlainMatmul.matmul_plain_zero_apply (m := 10000) (k := 32) (n := 64) none A B p q

/-- The edge kernel's stored block is the edge network of the nine blocks it loads. -/
theorem k0_pay1_eq (v0 v3 : Vec Ideal S10000x64 .f32) (v6 : Vec Ideal S10000x32 .f32) (v8 v11 : Vec Ideal S64x64 .f32)
    (v14 : Vec Ideal S32x64 .f32) (v22 : Vec Ideal S1x64 .f32) (v29 : Vec Ideal S64x64 .f32) (v32 : Vec Ideal S1x64 .f32) :
    k0_pay1 (F := Ideal) v0 v3 v6 v8 v11 v14 v22 v29 v32 = Mlp.edgeFn v0 v3 v6 v8 v11 v14 v22 v29 v32 := by
  funext i
  obtain ⟨p, q, rfl⟩ : ∃ (p : Fin 10000) (q : Fin 64), i = ix2 p q := ⟨i 0, i 1, eq_ix2 i⟩
  rw [Mlp.edgeFn_apply]
  unfold k0_pay1
  simp only [addf_apply, maximumf_apply, truncf_apply, broadcast_apply, mm64, mm32, bias_apply, shapeCast_self]
  rfl

/-- The node kernel's stored block is the node network of the blocks it loads (its first block, the node features,
    is loaded twice: once for the first product and once for the residual sum). -/
theorem k1_pay1_eq (v0 v2 : Vec Ideal S10000x64 .f32) (v5 v8 : Vec Ideal S64x64 .f32) (v14 : Vec Ideal S1x64 .f32)
    (v21 : Vec Ideal S64x64 .f32) (v24 : Vec Ideal S1x64 .f32) :
    k1_pay1 (F := Ideal) v0 v2 v5 v8 v14 v21 v24 v0 = Mlp.nodeFn v0 v2 v5 v8 v14 v21 v24 := by
  funext i
  obtain ⟨p, q, rfl⟩ : ∃ (p : Fin 10000) (q : Fin 64), i = ix2 p q := ⟨i 0, i 1, eq_ix2 i⟩
  rw [Mlp.nodeFn_apply]
  unfold k1_pay1
  simp only [addf_apply, maximumf_apply, truncf_apply, broadcast_apply, mm64, bias_apply, shapeCast_self]
  rfl

end Cert.KernelIdeal.Payload

end
-- ==== Proof.KBlocks.lean ====
/-
  Each kernel launch, seen from outside: after all its grid steps the output array holds the network's function of the
  arrays the launch found on entry.  Grid step t of the edge kernel reads rows 10000·t … 10000·t + 9999 of its three
  row-indexed inputs and the weight and bias arrays whole, and writes the same rows of its output; each output row of the
  network depends on that row of the row-indexed inputs only, so what step t writes is exactly rows 10000·t … of the
  network applied to the whole arrays, and the 80 steps' row ranges cover the 800000 rows.  The node kernel is the same
  with 5 steps over 50000 rows.
-/
import proofs.«180458_j60619168416170_1_alg».proof.Proof.Gen.KernelIdeal.Frame
import proofs.«180458_j60619168416170_1_alg».proof.Proof.KPayload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row p of the edge network on a block of rows is row P of the edge network on the whole arrays, when the block's row p
    is the arrays' row P and the weight and bias blocks are the weight and bias arrays. -/
theorem edge_block {n N : ℕ} (br bc : FVec Ideal ⟨2, ![n, 64]⟩ .f32) (be : FVec Ideal ⟨2, ![n, 32]⟩ .f32)
    (xr xc : FVec Ideal ⟨2, ![N, 64]⟩ .f32) (ea : FVec Ideal ⟨2, ![N, 32]⟩ .f32)
    (bwx bwy wx wy : FVec Ideal ⟨2, ![64, 64]⟩ .f32) (bwe we : FVec Ideal ⟨2, ![32, 64]⟩ .f32)
    (bb1 b1 : FVec Ideal ⟨2, ![1, 64]⟩ .f32) (bw2 w2 : FVec Ideal ⟨2, ![64, 64]⟩ .f32) (bb2 b2 : FVec Ideal ⟨2, ![1, 64]⟩ .f32)
    (p : Fin n) (P : Fin N) (q : Fin 64)
    (hr : ∀ a, br (ix2 p a) = xr (ix2 P a)) (hc : ∀ a, bc (ix2 p a) = xc (ix2 P a)) (he : ∀ a, be (ix2 p a) = ea (ix2 P a))
    (hwx : ∀ y, bwx y = wx y) (hwy : ∀ y, bwy y = wy y) (hwe : ∀ y, bwe y = we y) (hb1 : ∀ y, bb1 y = b1 y)
    (hw2 : ∀ y, bw2 y = w2 y) (hb2 : ∀ y, bb2 y = b2 y) :
    Mlp.edgeFn br bc be bwx bwy bwe bb1 bw2 bb2 (ix2 p q) = Mlp.edgeFn xr xc ea wx wy we b1 w2 b2 (ix2 P q) := by
  obtain rfl : bwx = wx := funext hwx
  obtain rfl : bwy = wy := funext hwy
  obtain rfl : bwe = we := funext hwe
  obtain rfl : bb1 = b1 := funext hb1
  obtain rfl : bw2 = w2 := funext hw2
  obtain rfl : bb2 = b2 := funext hb2
  exact Mlp.edgeFn_rows br bc be xr xc ea bwx bwy bwe bb1 bw2 bb2 p P q hr hc he

/-- The same for the node network. -/
theorem node_block {n N : ℕ} (bx ba : FVec Ideal ⟨2, ![n, 64]⟩ .f32) (x agg : FVec Ideal ⟨2, ![N, 64]⟩ .f32)
    (bwx bwa wx wa : FVec Ideal ⟨2, ![64, 64]⟩ .f32) (bb1 b1 : FVec Ideal ⟨2, ![1, 64]⟩ .f32)
    (bw2 w2 : FVec Ideal ⟨2, ![64, 64]⟩ .f32) (bb2 b2 : FVec Ideal ⟨2, ![1, 64]⟩ .f32)
    (p : Fin n) (P : Fin N) (q : Fin 64)
    (hx : ∀ a, bx (ix2 p a) = x (ix2 P a)) (ha : ∀ a, ba (ix2 p a) = agg (ix2 P a))
    (hwx : ∀ y, bwx y = wx y) (hwa : ∀ y, bwa y = wa y) (hb1 : ∀ y, bb1 y = b1 y)
    (hw2 : ∀ y, bw2 y = w2 y) (hb2 : ∀ y, bb2 y = b2 y) :
    Mlp.nodeFn bx ba bwx bwa bb1 bw2 bb2 (ix2 p q) = Mlp.nodeFn x agg wx wa b1 w2 b2 (ix2 P q) := by
  obtain rfl : bwx = wx := funext hwx
  obtain rfl : bwa = wa := funext hwa
  obtain rfl : bb1 = b1 := funext hb1
  obtain rfl : bw2 = w2 := funext hw2
  obtain rfl : bb2 = b2 := funext hb2
  exact Mlp.nodeFn_rows bx ba x agg bwx bwa bb1 bw2 bb2 p P q hx ha

/-! ## The edge kernel's launch -/

/-- The block index of every window of the edge kernel at grid step t: the row-indexed windows are at block row t, the
    weights and biases at their only block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 ∧ t.val < 80 :=
  (by decide +kernel : ∀ t : Fin grid0.N, _)

/-- What the edge kernel's output array holds after the launch, from the arrays the launch found. -/
def G0 (c : Dev nD) : S800000x64.Idx → EReal :=
  Mlp.edgeFn (V c main_v10) (V c main_v17) (V c main_arg2) (V c main_v18) (V c main_v19) (V c main_v20)
    (V c main_v21) (V c main_arg5) (V c main_v22)

/-- What grid step t of the edge kernel writes back is rows 10000·t … of `G0`. -/
theorem flushed0 (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz]
  simp only [View.ld_unit_zero (S := S10000x64) hz, View.ld_unit_zero (S := S10000x32) hz, View.ld_unit_zero (S := S64x64) hz,
    View.ld_unit_zero (S := S32x64) hz, View.ld_unit_zero (S := S1x64) hz]
  rw [Payload.k0_pay1_eq]
  obtain ⟨e00, e01, e10, e11, e20, e21, e30, e31, e40, e41, e50, e51, e60, e61, e70, e71, e80, e81, e90, e91, ht⟩ := idx0 t
  funext j
  obtain ⟨p, q, rfl⟩ : ∃ (p : Fin 10000) (q : Fin 64), j = ix2 p q := ⟨j 0, j 1, eq_ix2 j⟩
  have hp : p.val < 10000 := p.isLt
  have hrow : ((cfg0.win 9).blk t).view.emb (ix2 p q) = ix2 (⟨t.val * 10000 + p.val, by omega⟩ : Fin 800000) q := by
    funext a; apply Fin.ext
    match a with
    | ⟨0, _⟩ => show win0_9.index t (0 : Fin 2) * 10000 + 1 * p.val = t.val * 10000 + p.val; omega
    | ⟨1, _⟩ => show win0_9.index t (1 : Fin 2) * 64 + 1 * q.val = q.val; omega
  show Mlp.edgeFn (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q) = G0 V c (((cfg0.win 9).blk t).view.emb (ix2 p q))
  rw [hrow]
  unfold G0
  refine edge_block (iblk0 V c 0 t) (iblk0 V c 1 t) (iblk0 V c 2 t) (V c main_v10) (V c main_v17) (V c main_arg2)
    (iblk0 V c 3 t) (iblk0 V c 4 t) (V c main_v18) (V c main_v19) (iblk0 V c 5 t) (V c main_v20)
    (iblk0 V c 6 t) (V c main_v21) (iblk0 V c 7 t) (V c main_arg5) (iblk0 V c 8 t) (V c main_v22)
    p ⟨t.val * 10000 + p.val, by omega⟩ q ?_ ?_ ?_ ?_ ?_ ?_ ?_ ?_ ?_
  · intro a
    show V c main_v10 (((cfg0.win 0).blk t).view.emb (ix2 p a)) = _
    refine congrArg (V c main_v10) (funext fun b => Fin.ext ?_)
    match b with
    | ⟨0, _⟩ => show win0_0.index t (0 : Fin 2) * 10000 + 1 * p.val = t.val * 10000 + p.val; omega
    | ⟨1, _⟩ => show win0_0.index t (1 : Fin 2) * 64 + 1 * a.val = a.val; omega
  · intro a
    show V c main_v17 (((cfg0.win 1).blk t).view.emb (ix2 p a)) = _
    refine congrArg (V c main_v17) (funext fun b => Fin.ext ?_)
    match b with
    | ⟨0, _⟩ => show win0_1.index t (0 : Fin 2) * 10000 + 1 * p.val = t.val * 10000 + p.val; omega
    | ⟨1, _⟩ => show win0_1.index t (1 : Fin 2) * 64 + 1 * a.val = a.val; omega
  · intro a
    show V c main_arg2 (((cfg0.win 2).blk t).view.emb (ix2 p a)) = _
    refine congrArg (V c main_arg2) (funext fun b => Fin.ext ?_)
    match b with
    | ⟨0, _⟩ => show win0_2.index t (0 : Fin 2) * 10000 + 1 * p.val = t.val * 10000 + p.val; omega
    | ⟨1, _⟩ => show win0_2.index t (1 : Fin 2) * 32 + 1 * a.val = a.val; omega
  · intro y
    show V c main_v18 (((cfg0.win 3).blk t).view.emb y) = _
    refine congrArg (V c main_v18) (funext fun b => Fin.ext ?_)
    match b with
    | ⟨0, _⟩ => show win0_3.index t (0 : Fin 2) * 64 + 1 * (y 0).val = (y 0).val; omega
    | ⟨1, _⟩ => show win0_3.index t (1 : Fin 2) * 64 + 1 * (y 1).val = (y 1).val; omega
  · intro y
    show V c main_v19 (((cfg0.win 4).blk t).view.emb y) = _
    refine congrArg (V c main_v19) (funext fun b => Fin.ext ?_)
    match b with
    | ⟨0, _⟩ => show win0_4.index t (0 : Fin 2) * 64 + 1 * (y 0).val = (y 0).val; omega
    | ⟨1, _⟩ => show win0_4.index t (1 : Fin 2) * 64 + 1 * (y 1).val = (y 1).val; omega
  · intro y
    show V c main_v20 (((cfg0.win 5).blk t).view.emb y) = _
    refine congrArg (V c main_v20) (funext fun b => Fin.ext ?_)
    match b with
    | ⟨0, _⟩ => show win0_5.index t (0 : Fin 2) * 32 + 1 * (y 0).val = (y 0).val; omega
    | ⟨1, _⟩ => show win0_5.index t (1 : Fin 2) * 64 + 1 * (y 1).val = (y 1).val; omega
  · intro y
    show V c main_v21 (((cfg0.win 6).blk t).view.emb y) = _
    refine congrArg (V c main_v21) (funext fun b => Fin.ext ?_)
    match b with
    | ⟨0, _⟩ => show win0_6.index t (0 : Fin 2) * 1 + 1 * (y 0).val = (y 0).val; omega
    | ⟨1, _⟩ => show win0_6.index t (1 : Fin 2) * 64 + 1 * (y 1).val = (y 1).val; omega
  · intro y
    show V c main_arg5 (((cfg0.win 7).blk t).view.emb y) = _
    refine congrArg (V c main_arg5) (funext fun b => Fin.ext ?_)
    match b with
    | ⟨0, _⟩ => show win0_7.index t (0 : Fin 2) * 64 + 1 * (y 0).val = (y 0).val; omega
    | ⟨1, _⟩ => show win0_7.index t (1 : Fin 2) * 64 + 1 * (y 1).val = (y 1).val; omega
  · intro y
    show V c main_v22 (((cfg0.win 8).blk t).view.emb y) = _
    refine congrArg (V c main_v22) (funext fun b => Fin.ext ?_)
    match b with
    | ⟨0, _⟩ => show win0_8.index t (0 : Fin 2) * 1 + 1 * (y 0).val = (y 0).val; omega
    | ⟨1, _⟩ => show win0_8.index t (1 : Fin 2) * 64 + 1 * (y 1).val = (y 1).val; omega

/-- An index of the edge kernel's output array lies in step t's block iff each coordinate lies in the block's range. -/
theorem mem_blk0 (t : Fin cfg0.N) (i : S800000x64.Idx) :
    i ∈ ((cfg0.win 9).blk t).view.set ↔ ∀ a : Fin 2, win0_9.index t a * S10000x64.size a ≤ (i a).val
      ∧ (i a).val < win0_9.index t a * S10000x64.size a + S10000x64.size a := by
  show i ∈ ((View.whole main_v23).slice (win0_9.rect t)).set ↔ _
  rw [View.set_slice_whole, Rect.mem_set_unit]
  exact Iff.rfl

/-- After the launch the edge kernel's output array holds `G0`: row r lies in the block of step r / 10000. -/
theorem final0 (c : Dev nD) : (dat0 V c).arrAt 9 cfg0.N = G0 V c :=
  (dat0 V c).arrAt_eq_of_cover 9 (G0 V c) (fun t _ => flushed0 V c t) (fun i => by
    have hi0 : (i 0).val < 800000 := (i 0).isLt
    have hi1 : (i 1).val < 64 := (i 1).isLt
    obtain ⟨t, ht⟩ : ∃ t : Fin cfg0.N, t.val = (i 0).val / 10000 :=
      ⟨⟨(i 0).val / 10000, by have := N_0; show _ < grid0.N; omega⟩, rfl⟩
    obtain ⟨-, -, -, -, -, -, -, -, -, -, -, -, -, -, -, -, -, -, e90, e91, -⟩ := idx0 t
    refine ⟨t, flush0_9 t, ?_⟩
    rw [mem_blk0]
    intro a
    match a with
    | ⟨0, _⟩ => show win0_9.index t (0 : Fin 2) * 10000 ≤ (i 0).val ∧ (i 0).val < win0_9.index t (0 : Fin 2) * 10000 + 10000; omega
    | ⟨1, _⟩ => show win0_9.index t (1 : Fin 2) * 64 ≤ (i 1).val ∧ (i 1).val < win0_9.index t (1 : Fin 2) * 64 + 64; omega)

/-! ## The node kernel's launch -/

/-- The block index of every window of the node kernel at grid step t. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 5 :=
  (by decide +kernel : ∀ t : Fin grid1.N, _)

/-- What the node kernel's output array holds after the launch, from the arrays the launch found. -/
def G1 (c : Dev nD) : S50000x64.Idx → EReal :=
  Mlp.nodeFn (V c main_arg0) (V c main_v31) (V c main_v32) (V c main_v33) (V c main_v34) (V c main_arg9) (V c main_v35)

/-- What grid step t of the node kernel writes back is rows 10000·t … of `G1`. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz]
  rw [Payload.k1_pay1_eq]
  obtain ⟨e00, e01, e10, e11, e20, e21, e30, e31, e40, e41, e50, e51, e60, e61, e70, e71, ht⟩ := idx1 t
  funext j
  obtain ⟨p, q, rfl⟩ : ∃ (p : Fin 10000) (q : Fin 64), j = ix2 p q := ⟨j 0, j 1, eq_ix2 j⟩
  have hp : p.val < 10000 := p.isLt
  have hrow : ((cfg1.win 7).blk t).view.emb (ix2 p q) = ix2 (⟨t.val * 10000 + p.val, by omega⟩ : Fin 50000) q := by
    funext a; apply Fin.ext
    match a with
    | ⟨0, _⟩ => show win1_7.index t (0 : Fin 2) * 10000 + 1 * p.val = t.val * 10000 + p.val; omega
    | ⟨1, _⟩ => show win1_7.index t (1 : Fin 2) * 64 + 1 * q.val = q.val; omega
  show Mlp.nodeFn (iblk1 V c 0 t) (iblk1 V c 1 t) (iblk1 V c 2 t) (iblk1 V c 3 t) (iblk1 V c 4 t) (iblk1 V c 5 t)
        (iblk1 V c 6 t) (ix2 p q) = G1 V c (((cfg1.win 7).blk t).view.emb (ix2 p q))
  rw [hrow]
  unfold G1
  refine node_block (iblk1 V c 0 t) (iblk1 V c 1 t) (V c main_arg0) (V c main_v31)
    (iblk1 V c 2 t) (iblk1 V c 3 t) (V c main_v32) (V c main_v33) (iblk1 V c 4 t) (V c main_v34)
    (iblk1 V c 5 t) (V c main_arg9) (iblk1 V c 6 t) (V c main_v35)
    p ⟨t.val * 10000 + p.val, by omega⟩ q ?_ ?_ ?_ ?_ ?_ ?_ ?_
  · intro a
    show V c main_arg0 (((cfg1.win 0).blk t).view.emb (ix2 p a)) = _
    refine congrArg (V c main_arg0) (funext fun b => Fin.ext ?_)
    match b with
    | ⟨0, _⟩ => show win1_0.index t (0 : Fin 2) * 10000 + 1 * p.val = t.val * 10000 + p.val; omega
    | ⟨1, _⟩ => show win1_0.index t (1 : Fin 2) * 64 + 1 * a.val = a.val; omega
  · intro a
    show V c main_v31 (((cfg1.win 1).blk t).view.emb (ix2 p a)) = _
    refine congrArg (V c main_v31) (funext fun b => Fin.ext ?_)
    match b with
    | ⟨0, _⟩ => show win1_1.index t (0 : Fin 2) * 10000 + 1 * p.val = t.val * 10000 + p.val; omega
    | ⟨1, _⟩ => show win1_1.index t (1 : Fin 2) * 64 + 1 * a.val = a.val; omega
  · intro y
    show V c main_v32 (((cfg1.win 2).blk t).view.emb y) = _
    refine congrArg (V c main_v32) (funext fun b => Fin.ext ?_)
    match b with
    | ⟨0, _⟩ => show win1_2.index t (0 : Fin 2) * 64 + 1 * (y 0).val = (y 0).val; omega
    | ⟨1, _⟩ => show win1_2.index t (1 : Fin 2) * 64 + 1 * (y 1).val = (y 1).val; omega
  · intro y
    show V c main_v33 (((cfg1.win 3).blk t).view.emb y) = _
    refine congrArg (V c main_v33) (funext fun b => Fin.ext ?_)
    match b with
    | ⟨0, _⟩ => show win1_3.index t (0 : Fin 2) * 64 + 1 * (y 0).val = (y 0).val; omega
    | ⟨1, _⟩ => show win1_3.index t (1 : Fin 2) * 64 + 1 * (y 1).val = (y 1).val; omega
  · intro y
    show V c main_v34 (((cfg1.win 4).blk t).view.emb y) = _
    refine congrArg (V c main_v34) (funext fun b => Fin.ext ?_)
    match b with
    | ⟨0, _⟩ => show win1_4.index t (0 : Fin 2) * 1 + 1 * (y 0).val = (y 0).val; omega
    | ⟨1, _⟩ => show win1_4.index t (1 : Fin 2) * 64 + 1 * (y 1).val = (y 1).val; omega
  · intro y
    show V c main_arg9 (((cfg1.win 5).blk t).view.emb y) = _
    refine congrArg (V c main_arg9) (funext fun b => Fin.ext ?_)
    match b with
    | ⟨0, _⟩ => show win1_5.index t (0 : Fin 2) * 64 + 1 * (y 0).val = (y 0).val; omega
    | ⟨1, _⟩ => show win1_5.index t (1 : Fin 2) * 64 + 1 * (y 1).val = (y 1).val; omega
  · intro y
    show V c main_v35 (((cfg1.win 6).blk t).view.emb y) = _
    refine congrArg (V c main_v35) (funext fun b => Fin.ext ?_)
    match b with
    | ⟨0, _⟩ => show win1_6.index t (0 : Fin 2) * 1 + 1 * (y 0).val = (y 0).val; omega
    | ⟨1, _⟩ => show win1_6.index t (1 : Fin 2) * 64 + 1 * (y 1).val = (y 1).val; omega

/-- An index of the node kernel's output array lies in step t's block iff each coordinate lies in the block's range. -/
theorem mem_blk1 (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v36).slice (win1_7.rect t)).set ↔ _
  rw [View.set_slice_whole, Rect.mem_set_unit]
  exact Iff.rfl

/-- After the launch the node kernel's output array holds `G1`. -/
theorem final1 (c : Dev nD) : (dat1 V c).arrAt 7 cfg1.N = G1 V c :=
  (dat1 V c).arrAt_eq_of_cover 7 (G1 V c) (fun t _ => flushed1 V c t) (fun i => by
    have hi0 : (i 0).val < 50000 := (i 0).isLt
    have hi1 : (i 1).val < 64 := (i 1).isLt
    obtain ⟨t, ht⟩ : ∃ t : Fin cfg1.N, t.val = (i 0).val / 10000 :=
      ⟨⟨(i 0).val / 10000, by have := N_1; show _ < grid1.N; omega⟩, rfl⟩
    obtain ⟨-, -, -, -, -, -, -, -, -, -, -, -, -, -, e70, e71, -⟩ := idx1 t
    refine ⟨t, flush1_7 t, ?_⟩
    rw [mem_blk1]
    intro a
    match a with
    | ⟨0, _⟩ => show win1_7.index t (0 : Fin 2) * 10000 ≤ (i 0).val ∧ (i 0).val < win1_7.index t (0 : Fin 2) * 10000 + 10000; omega
    | ⟨1, _⟩ => show win1_7.index t (1 : Fin 2) * 64 ≤ (i 1).val ∧ (i 1).val < win1_7.index t (1 : Fin 2) * 64 + 64; omega)

end Cert.KernelIdeal.Blocks

end
-- ==== Proof.KValue.lean ====
/-
  The kernel program's result as one function of its eleven arguments.  The program gathers the two end nodes' features of
  every edge, cuts the first weight matrix into its three row ranges, runs the edge kernel, adds every edge's message
  into its target node's row of a zero array, cuts the second weight matrix into its two row ranges and runs the node
  kernel.  Walking the buffer contents back from the result — the node launch's output array, the arrays that launch
  found, the scatter of the edge launch's output array, the arrays that launch found — gives the value below.
-/
import proofs.«180458_j60619168416170_1_alg».proof.Proof.KRun
import proofs.«180458_j60619168416170_1_alg».proof.Proof.KBlocks
import Idealize.ShloMosaic.Lib.StableHlo.Run

set_option maxRecDepth 16384
set_option maxHeartbeats 1000000

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

/-- One row of the edge list as a column of node numbers, a negative number counted from the end (50000 added). -/
def nodeIdx (off : Fin 2 → ℕ) (hs : S2x800000.Slices off S1x800000)
    (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast S800000 (extractStridedSlice S1x800000 off x1 hs) shapeCasts_S1x800000_S800000)
        (broadcastInDim S800000 ![] bcast_S_S800000 (constantI S_ 32 0#32)))
      (addi (shapeCast S800000 (extractStridedSlice S1x800000 off x1 hs) shapeCasts_S1x800000_S800000)
        (broadcastInDim S800000 ![] bcast_S_S800000 (constantI S_ 32 50000#32)))
      (shapeCast S800000 (extractStridedSlice S1x800000 off x1 hs) shapeCasts_S1x800000_S800000))

/-- The messages: the edge network of the gathered end-node features and the edge attributes. -/
def messages (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S160x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) : (⟨S800000x64, .f32⟩ : BufTy).Contents (Elt Ideal) :=
  Mlp.edgeFn
    (Host.gather gather_S50000x64_S800000x1_S800000x64_1_0_n_n_0_1_164 x0 (nodeIdx ![0, 0] slices_S2x800000_S1x800000_0_0 x1))
    (Host.gather gather_S50000x64_S800000x1_S800000x64_1_0_n_n_0_1_164 x0 (nodeIdx ![1, 0] slices_S2x800000_S1x800000_1_0 x1))
    x2
    (extractStridedSlice S64x64 ![0, 0] x3 slices_S160x64_S64x64_0_0)
    (extractStridedSlice S64x64 ![64, 0] x3 slices_S160x64_S64x64_64_0)
    (extractStridedSlice S32x64 ![128, 0] x3 slices_S160x64_S32x64_128_0)
    (shapeCast S1x64 x4 shapeCasts_S64_S1x64) x5 (shapeCast S1x64 x6 shapeCasts_S64_S1x64)

/-- The messages summed into their target nodes' rows. -/
def aggregated (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S160x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (nodeIdx ![1, 0] slices_S2x800000_S1x800000_1_0 x1) (messages x0 x1 x2 x3 x4 x5 x6)

/-- The layer: the node network of the node features and the aggregated messages. -/
def layer (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S160x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) : (⟨S50000x64, .f32⟩ : BufTy).Contents (Elt Ideal) :=
  Mlp.nodeFn x0 (aggregated x0 x1 x2 x3 x4 x5 x6)
    (extractStridedSlice S64x64 ![0, 0] x7 slices_S128x64_S64x64_0_0)
    (extractStridedSlice S64x64 ![64, 0] x7 slices_S128x64_S64x64_64_0)
    (shapeCast S1x64 x8 shapeCasts_S64_S1x64) x9 (shapeCast S1x64 x10 shapeCasts_S64_S1x64)

variable (m : (ℓ : Loc nD τ sig) → Buf (Elt Ideal) ℓ) (ρ : Dev nD → PrngReg)

/-! ## The arrays the edge launch finds: the first host stretch from the launch memory -/

theorem W1_v10 (c : Dev nD) : W1 m ρ c (Proc.devRef .tc main_v10)
    = Host.gather gather_S50000x64_S800000x1_S800000x64_1_0_n_n_0_1_164 (m ((c : Thread nD τ).loc main_arg0))
        (nodeIdx ![0, 0] slices_S2x800000_S1x800000_0_0 (m ((c : Thread nD τ).loc main_arg1))) := by
  dsimp only [W1, hostOps0]; after_results_simp <;> rfl

theorem W1_v3 (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  dsimp only [W1, hostOps0]; after_results_simp <;> rfl

theorem W1_v17 (c : Dev nD) : W1 m ρ c (Proc.devRef .tc main_v17)
    = Host.gather gather_S50000x64_S800000x1_S800000x64_1_0_n_n_0_1_164 (m ((c : Thread nD τ).loc main_arg0))
        (nodeIdx ![1, 0] slices_S2x800000_S1x800000_1_0 (m ((c : Thread nD τ).loc main_arg1))) := by
  dsimp only [W1, hostOps0]; after_results_simp <;> rfl

theorem W1_v18 (c : Dev nD) : W1 m ρ c (Proc.devRef .tc main_v18)
    = extractStridedSlice S64x64 ![0, 0] (m ((c : Thread nD τ).loc main_arg3)) slices_S160x64_S64x64_0_0 := by
  dsimp only [W1, hostOps0]; after_results_simp <;> rfl

theorem W1_v19 (c : Dev nD) : W1 m ρ c (Proc.devRef .tc main_v19)
    = extractStridedSlice S64x64 ![64, 0] (m ((c : Thread nD τ).loc main_arg3)) slices_S160x64_S64x64_64_0 := by
  dsimp only [W1, hostOps0]; after_results_simp <;> rfl

theorem W1_v20 (c : Dev nD) : W1 m ρ c (Proc.devRef .tc main_v20)
    = extractStridedSlice S32x64 ![128, 0] (m ((c : Thread nD τ).loc main_arg3)) slices_S160x64_S32x64_128_0 := by
  dsimp only [W1, hostOps0]; after_results_simp <;> rfl

theorem W1_v21 (c : Dev nD) : W1 m ρ c (Proc.devRef .tc main_v21)
    = shapeCast S1x64 (m ((c : Thread nD τ).loc main_arg4)) shapeCasts_S64_S1x64 := by
  dsimp only [W1, hostOps0]; after_results_simp <;> rfl

theorem W1_v22 (c : Dev nD) : W1 m ρ c (Proc.devRef .tc main_v22)
    = shapeCast S1x64 (m ((c : Thread nD τ).loc main_arg6)) shapeCasts_S64_S1x64 := by
  dsimp only [W1, hostOps0]; after_results_simp <;> rfl

/-- No operation of the first host stretch writes an argument. -/
theorem W1_arg (c : Dev nD) (b : Ref sig .tc)
    (hb : b = main_arg0 ∨ b = main_arg2 ∨ b = main_arg5 ∨ b = main_arg7 ∨ b = main_arg8 ∨ b = main_arg9 ∨ b = main_arg10) :
    W1 m ρ c (Proc.devRef .tc b) = m ((c : Thread nD τ).loc b) := by
  rcases hb with rfl | rfl | rfl | rfl | rfl | rfl | rfl <;> (dsimp only [W1, hostOps0]; after_results_simp <;> rfl)

/-! ## The edge launch's output, and the arrays the node launch finds -/

/-- After the edge launch its output array holds the messages. -/
theorem W2_v23 (c : Dev nD) : W2 m ρ c (Proc.devRef .tc main_v23)
    = messages (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((W2_arr m ρ c 9).trans (Blocks.final0 (V1 m ρ) c)).trans ?_
  unfold Blocks.G0 messages
  show Mlp.edgeFn (W1 m ρ c (Proc.devRef .tc main_v10)) (W1 m ρ c (Proc.devRef .tc main_v17)) (W1 m ρ c (Proc.devRef .tc main_arg2))
      (W1 m ρ c (Proc.devRef .tc main_v18)) (W1 m ρ c (Proc.devRef .tc main_v19)) (W1 m ρ c (Proc.devRef .tc main_v20))
      (W1 m ρ c (Proc.devRef .tc main_v21)) (W1 m ρ c (Proc.devRef .tc main_arg5)) (W1 m ρ c (Proc.devRef .tc main_v22)) = _
  rw [W1_v10, W1_v17, W1_v18, W1_v19, W1_v20, W1_v21, W1_v22, W1_arg m ρ c main_arg2 (by simp), W1_arg m ρ c main_arg5 (by simp)]

/-- The edge launch leaves every buffer that is not one of its ten arrays as it found it. -/
theorem W2_other (c : Dev nD) (b : Ref sig .tc)
    (hb : b = main_arg0 ∨ b = main_arg7 ∨ b = main_arg8 ∨ b = main_arg9 ∨ b = main_arg10 ∨ b = main_v3) :
    W2 m ρ c (Proc.devRef .tc b) = W1 m ρ c (Proc.devRef .tc b) := by
  rcases hb with rfl | rfl | rfl | rfl | rfl | rfl <;> exact W2_of_ne m ρ c _ (by decide)

theorem W3_v31 (c : Dev nD) : W3 m ρ c (Proc.devRef .tc main_v31)
    = aggregated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  dsimp only [W3, hostOps1]
  after_results_simp
  rw [W2_v23, W2_other m ρ c main_v3 (by simp), W1_v3]
  rfl

theorem W3_v32 (c : Dev nD) : W3 m ρ c (Proc.devRef .tc main_v32)
    = extractStridedSlice S64x64 ![0, 0] (m ((c : Thread nD τ).loc main_arg7)) slices_S128x64_S64x64_0_0 := by
  dsimp only [W3, hostOps1]; after_results_simp
  rw [W2_other m ρ c main_arg7 (by simp), W1_arg m ρ c main_arg7 (by simp)]

theorem W3_v33 (c : Dev nD) : W3 m ρ c (Proc.devRef .tc main_v33)
    = extractStridedSlice S64x64 ![64, 0] (m ((c : Thread nD τ).loc main_arg7)) slices_S128x64_S64x64_64_0 := by
  dsimp only [W3, hostOps1]; after_results_simp
  rw [W2_other m ρ c main_arg7 (by simp), W1_arg m ρ c main_arg7 (by simp)]

theorem W3_v34 (c : Dev nD) : W3 m ρ c (Proc.devRef .tc main_v34)
    = shapeCast S1x64 (m ((c : Thread nD τ).loc main_arg8)) shapeCasts_S64_S1x64 := by
  dsimp only [W3, hostOps1]; after_results_simp
  rw [W2_other m ρ c main_arg8 (by simp), W1_arg m ρ c main_arg8 (by simp)]
  rfl

theorem W3_v35 (c : Dev nD) : W3 m ρ c (Proc.devRef .tc main_v35)
    = shapeCast S1x64 (m ((c : Thread nD τ).loc main_arg10)) shapeCasts_S64_S1x64 := by
  dsimp only [W3, hostOps1]; after_results_simp
  rw [W2_other m ρ c main_arg10 (by simp), W1_arg m ρ c main_arg10 (by simp)]
  rfl

theorem W3_arg0 (c : Dev nD) : W3 m ρ c (Proc.devRef .tc main_arg0) = m ((c : Thread nD τ).loc main_arg0) := by
  dsimp only [W3, hostOps1]; after_results_simp
  rw [W2_other m ρ c main_arg0 (by simp), W1_arg m ρ c main_arg0 (by simp)]

theorem W3_arg9 (c : Dev nD) : W3 m ρ c (Proc.devRef .tc main_arg9) = m ((c : Thread nD τ).loc main_arg9) := by
  dsimp only [W3, hostOps1]; after_results_simp
  rw [W2_other m ρ c main_arg9 (by simp), W1_arg m ρ c main_arg9 (by simp)]

/-! ## The result -/

/-- After the node launch the result buffer holds the layer of the eleven arguments. -/
theorem value (c : Dev nD) : W4 m ρ c (Proc.devRef .tc main_v36)
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine ((W4_arr m ρ c 7).trans (Blocks.final1 (V3 m ρ) c)).trans ?_
  unfold Blocks.G1 layer
  show Mlp.nodeFn (W3 m ρ c (Proc.devRef .tc main_arg0)) (W3 m ρ c (Proc.devRef .tc main_v31)) (W3 m ρ c (Proc.devRef .tc main_v32))
      (W3 m ρ c (Proc.devRef .tc main_v33)) (W3 m ρ c (Proc.devRef .tc main_v34)) (W3 m ρ c (Proc.devRef .tc main_arg9))
      (W3 m ρ c (Proc.devRef .tc main_v35)) = _
  rw [W3_arg0, W3_v31, W3_v32, W3_v33, W3_v34, W3_arg9, W3_v35]

/-- The kernel program's run, with its result at the layer of the arguments and the arguments unchanged. -/
theorem run : θ_run defs (onTc (τ := τ) (main (F := Ideal))) ⟨m, fun _ => 0, ρ⟩ (fun r => ∀ c : Dev nD,
      r.2.mem ((c.tc : Thread nD τ).loc main_v36)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (value m ρ c), (h c).2⟩) (run_named (F := Ideal) m ρ)

end Cert.KernelIdeal.KValue

end
-- ==== Proof.RefValue.lean ====
/-
  The reference program's result as the same two networks.  Its edge stage joins, for each edge, the two end nodes'
  features and the edge's attributes into one row of 160 numbers and multiplies that row by the 160×64 weight matrix;
  a sum over the 160 joined columns is the sum over the first 64 (the first end node against the weight's rows 0–63),
  plus the sum over the next 64 (the second end node against rows 64–127), plus the sum over the last 32 (the attributes
  against rows 128–159): addition of extended reals is commutative and associative, so the grouping does not matter, and
  nothing here needs the inputs finite.  The node stage is the same with two pieces of 64.  The biases are broadcast from
  one row, and the clamp at zero is the maximum with the zero word in both programs.
-/
import proofs.«180458_j60619168416170_1_alg».proof.Proof.Gen.ReferenceIdeal.Run
import proofs.«180458_j60619168416170_1_alg».proof.Proof.Gen.ReferenceIdeal.Read
import proofs.«180458_j60619168416170_1_alg».proof.Proof.Mlp
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read

/-- A sum over 160 terms is the sum of its first 64, its next 64 and its last 32. -/
theorem sum160 {M : Type} [AddCommMonoid M] (f : Fin 160 → M) :
    ∑ a, f a = ((∑ a : Fin 64, f ⟨a.val, by omega⟩) + ∑ a : Fin 64, f ⟨64 + a.val, by omega⟩)
      + ∑ a : Fin 32, f ⟨128 + a.val, by omega⟩ := by
  have h1 := Fin.sum_univ_add (a := 128) (b := 32) f
  have h2 := Fin.sum_univ_add (a := 64) (b := 64) (fun i : Fin (64 + 64) => f (Fin.castAdd 32 i))
  rw [h1, h2]; rfl

/-- A sum over 128 terms is the sum of its first 64 and its last 64. -/
theorem sum128 {M : Type} [AddCommMonoid M] (f : Fin 128 → M) :
    ∑ a, f a = (∑ a : Fin 64, f ⟨a.val, by omega⟩) + ∑ a : Fin 64, f ⟨64 + a.val, by omega⟩ := by
  have h1 := Fin.sum_univ_add (a := 64) (b := 64) f
  rw [h1]; rfl

section Edge

variable (x0 : (⟨S50000x64, .f32⟩ : BufTy).Contents (Elt Ideal)) (x1 : (⟨S2x800000, .i32⟩ : BufTy).Contents (Elt Ideal))
  (x2 : (⟨S800000x32, .f32⟩ : BufTy).Contents (Elt Ideal)) (x3 : (⟨S160x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal))

/-- Columns 0–63 of the joined row of edge e are the first end node's features. -/
theorem cat_lo (e : Fin 800000) (a : Fin 64) :
    val_main_v18 (F := Ideal) x0 x1 x2 (ix2 e (⟨a.val, by omega⟩ : Fin 160)) = val_main_v10 (F := Ideal) x0 x1 (ix2 e a) := by
  unfold val_main_v18
  generalize val_main_v10 (F := Ideal) x0 x1 = y0
  generalize val_main_v17 (F := Ideal) x0 x1 = y1
  refine concatenate_apply_piece (t := S800000x160) 1 [⟨S800000x64, y0⟩, ⟨S800000x64, y1⟩, ⟨S800000x32, x2⟩]
    concatenates_S800000x64_S800000x64_S800000x32_S800000x160_d1 (ix2 e (⟨a.val, by omega⟩ : Fin 160)) 0 (by show (0 : ℕ) < 3; omega)
    S800000x64 y0 rfl rfl 0 rfl (ix2 e a) ?_ ?_
  · intro b hb
    match b with
    | ⟨0, _⟩ => rfl
    | ⟨1, _⟩ => exact absurd rfl hb
  · show 0 + a.val = a.val; omega

/-- Columns 64–127 are the second end node's features. -/
theorem cat_mid (e : Fin 800000) (a : Fin 64) :
    val_main_v18 (F := Ideal) x0 x1 x2 (ix2 e (⟨64 + a.val, by omega⟩ : Fin 160)) = val_main_v17 (F := Ideal) x0 x1 (ix2 e a) := by
  unfold val_main_v18
  generalize val_main_v10 (F := Ideal) x0 x1 = y0
  generalize val_main_v17 (F := Ideal) x0 x1 = y1
  refine concatenate_apply_piece (t := S800000x160) 1 [⟨S800000x64, y0⟩, ⟨S800000x64, y1⟩, ⟨S800000x32, x2⟩]
    concatenates_S800000x64_S800000x64_S800000x32_S800000x160_d1 (ix2 e (⟨64 + a.val, by omega⟩ : Fin 160)) 1 (by show (1 : ℕ) < 3; omega)
    S800000x64 y1 rfl rfl 64 rfl (ix2 e a) ?_ ?_
  · intro b hb
    match b with
    | ⟨0, _⟩ => rfl
    | ⟨1, _⟩ => exact absurd rfl hb
  · show 64 + a.val = 64 + a.val; rfl

/-- Columns 128–159 are the edge's attributes. -/
theorem cat_hi (e : Fin 800000) (a : Fin 32) :
    val_main_v18 (F := Ideal) x0 x1 x2 (ix2 e (⟨128 + a.val, by omega⟩ : Fin 160)) = x2 (ix2 e a) := by
  unfold val_main_v18
  generalize val_main_v10 (F := Ideal) x0 x1 = y0
  generalize val_main_v17 (F := Ideal) x0 x1 = y1
  refine concatenate_apply_piece (t := S800000x160) 1 [⟨S800000x64, y0⟩, ⟨S800000x64, y1⟩, ⟨S800000x32, x2⟩]
    concatenates_S800000x64_S800000x64_S800000x32_S800000x160_d1 (ix2 e (⟨128 + a.val, by omega⟩ : Fin 160)) 2 (by show (2 : ℕ) < 3; omega)
    S800000x32 x2 rfl rfl 128 rfl (ix2 e a) ?_ ?_
  · intro b hb
    match b with
    | ⟨0, _⟩ => rfl
    | ⟨1, _⟩ => exact absurd rfl hb
  · show 128 + a.val = 128 + a.val; rfl

/-- The reference's hidden unit k of edge e is the edge network's, with the weight matrix cut into its three row
    ranges and the bias read as one row. -/
theorem hid_ref (h0 : S160x64.Slices ![0, 0] S64x64) (h1 : S160x64.Slices ![64, 0] S64x64)
    (h2 : S160x64.Slices ![128, 0] (⟨2, ![32, 64]⟩ : Shape)) (hc : S64.ShapeCasts S1x64) (e : Fin 800000) (k : Fin 64) :
    val_main_v23 (F := Ideal) x0 x1 x2 x3 x4 (ix2 e k)
      = Mlp.edgeHid (val_main_v10 (F := Ideal) x0 x1) (val_main_v17 (F := Ideal) x0 x1) x2
          (extractStridedSlice S64x64 ![0, 0] x3 h0) (extractStridedSlice S64x64 ![64, 0] x3 h1)
          (extractStridedSlice (⟨2, ![32, 64]⟩ : Shape) ![128, 0] x3 h2) (shapeCast S1x64 x4 hc) e k := by
  have hl : ∀ A : Fin 160, lidx_main_v19 (ix2 e k) A = ix2 e A := fun A => funext fun b => by
    match b with
    | ⟨0, _⟩ => rfl
    | ⟨1, _⟩ => rfl
  have hr : ∀ A : Fin 160, ridx_main_v19 (ix2 e k) A = ix2 A k := fun A => funext fun b => by
    match b with
    | ⟨0, _⟩ => rfl
    | ⟨1, _⟩ => rfl
  rw [val_main_v23_apply, val_main_v22_apply, val_main_v19_apply, sum160]
  simp only [hl, hr, cat_lo, cat_mid, cat_hi]
  -- the weight matrix's three row ranges
  have s0 : ∀ a : Fin 64, extractStridedSlice S64x64 ![0, 0] x3 h0 (ix2 a k) = x3 (ix2 (⟨a.val, by omega⟩ : Fin 160) k) :=
    fun a => congrArg x3 (funext fun b => Fin.ext (by
      match b with
      | ⟨0, _⟩ => show 0 + a.val = a.val; omega
      | ⟨1, _⟩ => show 0 + k.val = k.val; omega))
  have s64 : ∀ a : Fin 64, extractStridedSlice S64x64 ![64, 0] x3 h1 (ix2 a k) = x3 (ix2 (⟨64 + a.val, by omega⟩ : Fin 160) k) :=
    fun a => congrArg x3 (funext fun b => Fin.ext (by
      match b with
      | ⟨0, _⟩ => rfl
      | ⟨1, _⟩ => show 0 + k.val = k.val; omega))
  have s128 : ∀ a : Fin 32, extractStridedSlice (⟨2, ![32, 64]⟩ : Shape) ![128, 0] x3 h2 (ix2 a k) = x3 (ix2 (⟨128 + a.val, by omega⟩ : Fin 160) k) :=
    fun a => congrArg x3 (funext fun b => Fin.ext (by
      match b with
      | ⟨0, _⟩ => rfl
      | ⟨1, _⟩ => show 0 + k.val = k.val; omega))
  -- the bias, broadcast from a vector in the reference and read from a one-row array in the network
  have hb : val_main_v21 (F := Ideal) x4 (ix2 e k) = shapeCast S1x64 x4 hc (ix2 (0 : Fin 1) k) := by
    rw [val_main_v21_apply, val_main_v20_apply, shapeCast_addUnit_apply]
    refine congrArg x4 (funext fun b => Fin.ext ?_)
    match b with
    | ⟨0, _⟩ => rfl
  have hzero : val_main_call0_v0 (F := Ideal) (ix2 e k) = Mlp.z32 := by
    rw [val_main_call0_v0_apply, val_main_call0_cst_apply]; rfl
  unfold Mlp.edgeHid
  simp only [s0, s64, s128, hb, hzero]
  rfl

/-- The reference's edge stage is the edge network of the gathered end-node features, the edge attributes, the weight
    matrix's three row ranges and the biases as one-row arrays. -/
theorem edge_ref (h0 : S160x64.Slices ![0, 0] S64x64) (h1 : S160x64.Slices ![64, 0] S64x64)
    (h2 : S160x64.Slices ![128, 0] (⟨2, ![32, 64]⟩ : Shape)) (hc : S64.ShapeCasts S1x64) :
    val_main_v27 (F := Ideal) x0 x1 x2 x3 x4 x5 x6
      = Mlp.edgeFn (val_main_v10 (F := Ideal) x0 x1) (val_main_v17 (F := Ideal) x0 x1) x2
          (extractStridedSlice S64x64 ![0, 0] x3 h0) (extractStridedSlice S64x64 ![64, 0] x3 h1)
          (extractStridedSlice (⟨2, ![32, 64]⟩ : Shape) ![128, 0] x3 h2) (shapeCast S1x64 x4 hc) x5 (shapeCast S1x64 x6 hc) := by
  funext i
  obtain ⟨e, j, rfl⟩ : ∃ (e : Fin 800000) (j : Fin 64), i = ix2 e j := ⟨i 0, i 1, eq_ix2 i⟩
  have hl : ∀ A : Fin 64, lidx_main_v24 (ix2 e j) A = ix2 e A := fun A => funext fun b => by
    match b with
    | ⟨0, _⟩ => rfl
    | ⟨1, _⟩ => rfl
  have hr : ∀ A : Fin 64, ridx_main_v24 (ix2 e j) A = ix2 A j := fun A => funext fun b => by
    match b with
    | ⟨0, _⟩ => rfl
    | ⟨1, _⟩ => rfl
  have hb : val_main_v26 (F := Ideal) x6 (ix2 e j) = shapeCast S1x64 x6 hc (ix2 (0 : Fin 1) j) := by
    rw [val_main_v26_apply, val_main_v25_apply, shapeCast_addUnit_apply]
    refine congrArg x6 (funext fun b => Fin.ext ?_)
    match b with
    | ⟨0, _⟩ => rfl
  rw [Mlp.edgeFn_apply, val_main_v27_apply, val_main_v24_apply, hb]
  simp only [hl, hr, hid_ref x0 x1 x2 x3 x4 h0 h1 h2 hc]
  rfl

end Edge

section Node

variable (x0 : (⟨S50000x64, .f32⟩ : BufTy).Contents (Elt Ideal)) (x1 : (⟨S2x800000, .i32⟩ : BufTy).Contents (Elt Ideal))
  (x2 : (⟨S800000x32, .f32⟩ : BufTy).Contents (Elt Ideal)) (x3 : (⟨S160x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S128x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal))

/-- Columns 0–63 of the joined row of node v are the node's own features. -/
theorem cat2_lo (v : Fin 50000) (a : Fin 64) :
    val_main_v36 (F := Ideal) x0 x1 x2 x3 x4 x5 x6 (ix2 v (⟨a.val, by omega⟩ : Fin 128)) = x0 (ix2 v a) := by
  unfold val_main_v36
  generalize val_main_v35 (F := Ideal) x0 x1 x2 x3 x4 x5 x6 = y1
  refine concatenate_apply_piece (t := S50000x128) 1 [⟨S50000x64, x0⟩, ⟨S50000x64, y1⟩]
    concatenates_S50000x64_S50000x64_S50000x128_d1 (ix2 v (⟨a.val, by omega⟩ : Fin 128)) 0 (by show (0 : ℕ) < 2; omega)
    S50000x64 x0 rfl rfl 0 rfl (ix2 v a) ?_ ?_
  · intro b hb
    match b with
    | ⟨0, _⟩ => rfl
    | ⟨1, _⟩ => exact absurd rfl hb
  · show 0 + a.val = a.val; omega

/-- Columns 64–127 are the messages aggregated at the node. -/
theorem cat2_hi (v : Fin 50000) (a : Fin 64) :
    val_main_v36 (F := Ideal) x0 x1 x2 x3 x4 x5 x6 (ix2 v (⟨64 + a.val, by omega⟩ : Fin 128))
      = val_main_v35 (F := Ideal) x0 x1 x2 x3 x4 x5 x6 (ix2 v a) := by
  unfold val_main_v36
  generalize val_main_v35 (F := Ideal) x0 x1 x2 x3 x4 x5 x6 = y1
  refine concatenate_apply_piece (t := S50000x128) 1 [⟨S50000x64, x0⟩, ⟨S50000x64, y1⟩]
    concatenates_S50000x64_S50000x64_S50000x128_d1 (ix2 v (⟨64 + a.val, by omega⟩ : Fin 128)) 1 (by show (1 : ℕ) < 2; omega)
    S50000x64 y1 rfl rfl 64 rfl (ix2 v a) ?_ ?_
  · intro b hb
    match b with
    | ⟨0, _⟩ => rfl
    | ⟨1, _⟩ => exact absurd rfl hb
  · show 64 + a.val = 64 + a.val; rfl

/-- The reference's hidden unit k of node v is the node network's, with the weight matrix cut into its two row ranges. -/
theorem nhid_ref (h0 : S128x64.Slices ![0, 0] S64x64) (h1 : S128x64.Slices ![64, 0] S64x64) (hc : S64.ShapeCasts S1x64)
    (v : Fin 50000) (k : Fin 64) :
    val_main_v41 (F := Ideal) x0 x1 x2 x3 x4 x5 x6 x7 x8 (ix2 v k)
      = Mlp.nodeHid x0 (val_main_v35 (F := Ideal) x0 x1 x2 x3 x4 x5 x6)
          (extractStridedSlice S64x64 ![0, 0] x7 h0) (extractStridedSlice S64x64 ![64, 0] x7 h1) (shapeCast S1x64 x8 hc) v k := by
  have hl : ∀ A : Fin 128, lidx_main_v37 (ix2 v k) A = ix2 v A := fun A => funext fun b => by
    match b with
    | ⟨0, _⟩ => rfl
    | ⟨1, _⟩ => rfl
  have hr : ∀ A : Fin 128, ridx_main_v37 (ix2 v k) A = ix2 A k := fun A => funext fun b => by
    match b with
    | ⟨0, _⟩ => rfl
    | ⟨1, _⟩ => rfl
  rw [val_main_v41_apply, val_main_v40_apply, val_main_v37_apply, sum128]
  simp only [hl, hr, cat2_lo, cat2_hi]
  have s0 : ∀ a : Fin 64, extractStridedSlice S64x64 ![0, 0] x7 h0 (ix2 a k) = x7 (ix2 (⟨a.val, by omega⟩ : Fin 128) k) :=
    fun a => congrArg x7 (funext fun b => Fin.ext (by
      match b with
      | ⟨0, _⟩ => show 0 + a.val = a.val; omega
      | ⟨1, _⟩ => show 0 + k.val = k.val; omega))
  have s64 : ∀ a : Fin 64, extractStridedSlice S64x64 ![64, 0] x7 h1 (ix2 a k) = x7 (ix2 (⟨64 + a.val, by omega⟩ : Fin 128) k) :=
    fun a => congrArg x7 (funext fun b => Fin.ext (by
      match b with
      | ⟨0, _⟩ => rfl
      | ⟨1, _⟩ => show 0 + k.val = k.val; omega))
  have hb : val_main_v39 (F := Ideal) x8 (ix2 v k) = shapeCast S1x64 x8 hc (ix2 (0 : Fin 1) k) := by
    rw [val_main_v39_apply, val_main_v38_apply, shapeCast_addUnit_apply]
    refine congrArg x8 (funext fun b => Fin.ext ?_)
    match b with
    | ⟨0, _⟩ => rfl
  have hzero : val_main_call1_v0 (F := Ideal) (ix2 v k) = Mlp.z32 := by
    rw [val_main_call1_v0_apply, val_main_call1_cst_apply]; rfl
  unfold Mlp.nodeHid
  simp only [s0, s64, hb, hzero]
  rfl

/-- The reference's node stage is the node network of the node features, the aggregated messages, the weight matrix's
    two row ranges and the biases as one-row arrays. -/
theorem node_ref (h0 : S128x64.Slices ![0, 0] S64x64) (h1 : S128x64.Slices ![64, 0] S64x64) (hc : S64.ShapeCasts S1x64) :
    val_main_v47 (F := Ideal) x0 x1 x2 x3 x4 x5 x6 x7 x8 x9 x10
      = Mlp.nodeFn x0 (val_main_v35 (F := Ideal) x0 x1 x2 x3 x4 x5 x6)
          (extractStridedSlice S64x64 ![0, 0] x7 h0) (extractStridedSlice S64x64 ![64, 0] x7 h1) (shapeCast S1x64 x8 hc)
          x9 (shapeCast S1x64 x10 hc) := by
  funext i
  obtain ⟨v, j, rfl⟩ : ∃ (v : Fin 50000) (j : Fin 64), i = ix2 v j := ⟨i 0, i 1, eq_ix2 i⟩
  have hl : ∀ A : Fin 64, lidx_main_v42 (ix2 v j) A = ix2 v A := fun A => funext fun b => by
    match b with
    | ⟨0, _⟩ => rfl
    | ⟨1, _⟩ => rfl
  have hr : ∀ A : Fin 64, ridx_main_v42 (ix2 v j) A = ix2 A j := fun A => funext fun b => by
    match b with
    | ⟨0, _⟩ => rfl
    | ⟨1, _⟩ => rfl
  have hb : val_main_v44 (F := Ideal) x10 (ix2 v j) = shapeCast S1x64 x10 hc (ix2 (0 : Fin 1) j) := by
    rw [val_main_v44_apply, val_main_v43_apply, shapeCast_addUnit_apply]
    refine congrArg x10 (funext fun b => Fin.ext ?_)
    match b with
    | ⟨0, _⟩ => rfl
  have hzero : val_main_call2_v0 (F := Ideal) (ix2 v j) = Mlp.z32 := by
    rw [val_main_call2_v0_apply, val_main_call2_cst_apply]; rfl
  rw [Mlp.nodeFn_apply, val_main_v47_apply, val_main_v46_apply, val_main_v45_apply, val_main_v42_apply, hb, hzero]
  simp only [hl, hr, nhid_ref x0 x1 x2 x3 x4 x5 x6 x7 x8 h0 h1 hc]
  rfl

end Node

end Cert.ReferenceIdeal.RefValue

end
-- ==== Proof.lean ====
/-
  One message-passing layer of a graph network, as a program of two kernel launches, against its reference.

  Both programs gather the features of the two end nodes of every edge, apply a two-layer network to each edge (the
  messages), add every message into its target node's row, and apply a two-layer network with a residual connection to
  every node.  The kernel program multiplies the three parts of the joined edge row (first end node, second end node,
  edge attributes) by the three row ranges of the first weight matrix and adds the three products, where the reference
  joins the parts and multiplies once; likewise with two parts in the node network.  Over the extended reals a sum over
  the joined columns is the sum of the sums over the parts — addition is commutative and associative there — so the two
  agree whatever the inputs are, and finiteness of the inputs is not used.  The kernel's narrower float format for
  the products' operands is the identity at the ideal values, and its blocks of 10000 rows are rows of the whole arrays.
  The gathers and the scatter are the same host operations applied to equal arrays in both programs, and are never opened.

  The three frames: the kernel programs' are the generated frames; the reference's is its generated run with the result
  dropped.  The idealization ledger is empty.
-/
import proofs.«180458_j60619168416170_1_alg».proof.Defs
import proofs.«180458_j60619168416170_1_alg».proof.Proof.Gen.Kernel
import proofs.«180458_j60619168416170_1_alg».proof.Proof.Gen.Kernel.Frame
import proofs.«180458_j60619168416170_1_alg».proof.Proof.Gen.KernelIdeal
import proofs.«180458_j60619168416170_1_alg».proof.Proof.Gen.KernelIdeal.Frame
import proofs.«180458_j60619168416170_1_alg».proof.Proof.Gen.ReferenceIdeal
import proofs.«180458_j60619168416170_1_alg».proof.Proof.Gen.ReferenceIdeal.Run
import proofs.«180458_j60619168416170_1_alg».proof.Proof.Gen.ReferenceIdeal.Read
import proofs.«180458_j60619168416170_1_alg».proof.Proof.Gen.Pre_finite_inputs
import proofs.«180458_j60619168416170_1_alg».proof.Proof.KValue
import proofs.«180458_j60619168416170_1_alg».proof.Proof.RefValue
import Idealize.ShloMosaic.Adequacy
import Idealize.ShloMosaic.Init

noncomputable section

namespace Cert.Proof

open Idealize.ShloMosaic Idealize.SL.Sem

section Bridge

variable (x0 : (⟨Cert.KernelIdeal.S50000x64, .f32⟩ : BufTy).Contents (Elt Ideal))
  (x1 : (⟨Cert.KernelIdeal.S2x800000, .i32⟩ : BufTy).Contents (Elt Ideal))
  (x2 : (⟨Cert.KernelIdeal.S800000x32, .f32⟩ : BufTy).Contents (Elt Ideal))
  (x3 : (⟨Cert.KernelIdeal.S160x64, .f32⟩ : BufTy).Contents (Elt Ideal))
  (x4 : (⟨Cert.KernelIdeal.S64, .f32⟩ : BufTy).Contents (Elt Ideal))
  (x5 : (⟨Cert.KernelIdeal.S64x64, .f32⟩ : BufTy).Contents (Elt Ideal))
  (x6 : (⟨Cert.KernelIdeal.S64, .f32⟩ : BufTy).Contents (Elt Ideal))
  (x7 : (⟨Cert.KernelIdeal.S128x64, .f32⟩ : BufTy).Contents (Elt Ideal))
  (x8 : (⟨Cert.KernelIdeal.S64, .f32⟩ : BufTy).Contents (Elt Ideal))
  (x9 : (⟨Cert.KernelIdeal.S64x64, .f32⟩ : BufTy).Contents (Elt Ideal))
  (x10 : (⟨Cert.KernelIdeal.S64, .f32⟩ : BufTy).Contents (Elt Ideal))

/-- The reference's edge stage is the kernel program's messages: the same gathers feed the same edge network. -/
theorem messages_eq :
    Cert.ReferenceIdeal.Read.val_main_v27 (F := Ideal) x0 x1 x2 x3 x4 x5 x6 = Cert.KernelIdeal.KValue.messages x0 x1 x2 x3 x4 x5 x6 :=
  (Cert.ReferenceIdeal.RefValue.edge_ref x0 x1 x2 x3 x4 x5 x6 Cert.KernelIdeal.Gen.slices_S160x64_S64x64_0_0
    Cert.KernelIdeal.Gen.slices_S160x64_S64x64_64_0 Cert.KernelIdeal.Gen.slices_S160x64_S32x64_128_0
    Cert.KernelIdeal.Gen.shapeCasts_S64_S1x64).trans rfl

/-- The reference's scatter of its edge stage is the kernel program's aggregated messages: one scatter of equal arrays. -/
theorem aggregated_eq :
    Cert.ReferenceIdeal.Read.val_main_v35 (F := Ideal) x0 x1 x2 x3 x4 x5 x6 = Cert.KernelIdeal.KValue.aggregated x0 x1 x2 x3 x4 x5 x6 := by
  unfold Cert.ReferenceIdeal.Read.val_main_v35 Cert.KernelIdeal.KValue.aggregated
  rw [messages_eq]
  rfl

/-- The reference's result is the kernel program's layer. -/
theorem layer_eq :
    Cert.ReferenceIdeal.Read.val_main_v47 (F := Ideal) x0 x1 x2 x3 x4 x5 x6 x7 x8 x9 x10
      = Cert.KernelIdeal.KValue.layer x0 x1 x2 x3 x4 x5 x6 x7 x8 x9 x10 := by
  rw [Cert.ReferenceIdeal.RefValue.node_ref x0 x1 x2 x3 x4 x5 x6 x7 x8 x9 x10 Cert.KernelIdeal.Gen.slices_S128x64_S64x64_0_0
    Cert.KernelIdeal.Gen.slices_S128x64_S64x64_64_0 Cert.KernelIdeal.Gen.shapeCasts_S64_S1x64, aggregated_eq]
  rfl

end Bridge

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the two idealized programs both end with the layer of the arguments
    in their result buffers. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq]
  obtain ⟨e0, e1, e2, e3, e4, e5, e6, e7, e8, e9, e10⟩ := hagree c
  rw [e0, e1, e2, e3, e4, e5, e6, e7, e8, e9, e10]
  exact layer_eq _ _ _ _ _ _ _ _ _ _ _

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
